-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x794 : Shape := ⟨2, ![32768, 794]⟩
abbrev S1024x794 : Shape := ⟨2, ![1024, 794]⟩
abbrev S1024 : Shape := ⟨1, ![1024]⟩
abbrev S512x1024 : Shape := ⟨2, ![512, 1024]⟩
abbrev S512 : Shape := ⟨1, ![512]⟩
abbrev S_ : Shape := ⟨0, ![]⟩

class Facts : Prop where
  bcast_S_S32768x794 : S_.BroadcastsInDim S32768x794 (![] : Fin 0 → Fin S32768x794.rank)
  reducesTo_S32768x794_S_d0_1 : S32768x794.ReducesTo [0, 1] S_
  h_S_ : 0 < S_.numel
  bcast_S_S1024x794 : S_.BroadcastsInDim S1024x794 (![] : Fin 0 → Fin S1024x794.rank)
  reducesTo_S1024x794_S_d0_1 : S1024x794.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512x1024 .f32) (main_v50 : FVec F S512x1024 .f32) : IVec S_ 1 :=
  let main_v51 : IVec S512x1024 1 := cmpf .olt main_v49 main_v50
  let main_c_19 : IVec S_ 1 := constantI S_ 1 1#1
  let main_v52 : IVec S_ 1 := (fun x v => Host.reduce IntOp.andi x v reducesTo_S512x1024_S_d0_1 h_S_) main_v51 main_c_19
  let main_v53 : IVec S_ 1 := andi main_v48 main_v52
  main_v53

def fn_part2 {F : FTy → Type} [FloatOps F] (main_arg7 : FVec F S512x1024 .f32) (main_arg8 : FVec F S512 .f32) (main_arg9 : FVec F S1024x794 .f32) (main_arg10 : FVec F S512x1024 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1024x794 .f32 := Host.absf main_arg9
  let main_cst_16 : FVec F S_ .f32 := constant S_ .f32 0x7F800000#32
  let main_v45 : FVec F S1024x794 .f32 := broadcastInDim S1024x794 ![] bcast_S_S1024x794 main_cst_16
  let main_v46 : IVec S1024x794 1 := cmpf .olt main_v44 main_v45
  let main_c_17 : IVec S_ 1 := constantI S_ 1 1#1
  let main_v47 : IVec S_ 1 := (fun x v => Host.reduce IntOp.andi x v reducesTo_S1024x794_S_d0_1 h_S_) main_v46 main_c_17
  let main_v48 : IVec S_ 1 := andi main_v43 main_v47
  let main_v49 : FVec F S512x1024 .f32 := Host.absf main_arg10
  let main_cst_18 : FVec F S_ .f32 := constant S_ .f32 0x7F800000#32
  let main_v50 : FVec F S512x1024 .f32 := broadcastInDim S512x1024 ![] bcast_S_S512x1024 main_cst_18
  fn_part3 (F := F) main_v48 main_v49 main_v50

def fn_part1 {F : FTy → Type} [FloatOps F] (main_arg4 : FVec F S1024 .f32) (main_arg5 : FVec F S512x1024 .f32) (main_arg6 : FVec F S512 .f32) (main_arg7 : FVec F S512x1024 .f32) (main_arg8 : FVec F S512 .f32) (main_arg9 : FVec F S1024x794 .f32) (main_arg10 : FVec F S512x1024 .f32) (main_v13 : IVec S_ 1) (main_v16 : IVec S1024x794 1) : IVec S_ 1 :=
  let main_c_5 : IVec S_ 1 := constantI S_ 1 1#1
  let main_v17 : IVec S_ 1 := (fun x v => Host.reduce IntOp.andi x v reducesTo_S1024x794_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32768x794 .f32) (main_arg1 : FVec F S1024x794 .f32) (main_arg2 : FVec F S1024 .f32) (main_arg3 : FVec F S1024x794 .f32) (main_arg4 : FVec F S1024 .f32) (main_arg5 : FVec F S512x1024 .f32) (main_arg6 : FVec F S512 .f32) (main_arg7 : FVec F S512x1024 .f32) (main_arg8 : FVec F S512 .f32) (main_arg9 : FVec F S1024x794 .f32) (main_arg10 : FVec F S512x1024 .f32) : IVec S_ 1 :=
  let main_v0 : FVec F S32768x794 .f32 := Host.absf main_arg0
  let main_cst : FVec F S_ .f32 := constant S_ .f32 0x7F800000#32
  let main_v1 : FVec F S32768x794 .f32 := broadcastInDim S32768x794 ![] bcast_S_S32768x794 main_cst
  let main_v2 : IVec S32768x794 1 := cmpf .olt main_v0 main_v1
  let main_c : IVec S_ 1 := constantI S_ 1 1#1
  let main_v3 : IVec S_ 1 := (fun x v => Host.reduce IntOp.andi x v reducesTo_S32768x794_S_d0_1 h_S_) main_v2 main_c
  let main_v4 : FVec F S1024x794 .f32 := Host.absf main_arg1
  let main_cst_0 : FVec F S_ .f32 := constant S_ .f32 0x7F800000#32
  let main_v5 : FVec F S1024x794 .f32 := broadcastInDim S1024x794 ![] bcast_S_S1024x794 main_cst_0
  let main_v6 : IVec S1024x794 1 := cmpf .olt main_v4 main_v5
  let main_c_1 : IVec S_ 1 := constantI S_ 1 1#1
  let main_v7 : IVec S_ 1 := (fun x v => Host.reduce IntOp.andi x v reducesTo_S1024x794_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x794 .f32 := Host.absf main_arg3
  let main_cst_4 : FVec F S_ .f32 := constant S_ .f32 0x7F800000#32
  let main_v15 : FVec F S1024x794 .f32 := broadcastInDim S1024x794 ![] bcast_S_S1024x794 main_cst_4
  let main_v16 : IVec S1024x794 1 := cmpf .olt main_v14 main_v15
  fn_part1 (F := F) main_arg4 main_arg5 main_arg6 main_arg7 main_arg8 main_arg9 main_arg10 main_v13 main_v16
-- ==== Kernel.lean ====
abbrev S32768x794 : Shape := ⟨2, ![32768, 794]⟩
abbrev S1024x794 : Shape := ⟨2, ![1024, 794]⟩
abbrev S1024 : Shape := ⟨1, ![1024]⟩
abbrev S512x1024 : Shape := ⟨2, ![512, 1024]⟩
abbrev S512 : Shape := ⟨1, ![512]⟩
abbrev S_ : Shape := ⟨0, ![]⟩
abbrev S794x1024 : Shape := ⟨2, ![794, 1024]⟩
abbrev S1024x512 : Shape := ⟨2, ![1024, 512]⟩
abbrev S1x1024 : Shape := ⟨2, ![1, 1024]⟩
abbrev S1x512 : Shape := ⟨2, ![1, 512]⟩
abbrev S32768x512 : Shape := ⟨2, ![32768, 512]⟩
abbrev S1024x1024 : Shape := ⟨2, ![1024, 1024]⟩

abbrev nBuf : Space → Nat
  | .hbm => 30
  | .vmem => 8
  | .smem => 0
  | _ => 0

abbrev bufTy : (tb : Table) → Fin (tcTables nBuf tb) → BufTy
  | .hbm, ⟨0, _⟩ => ⟨S32768x794, .f32⟩
  | .hbm, ⟨1, _⟩ => ⟨S1024x794, .f32⟩
  | .hbm, ⟨2, _⟩ => ⟨S1024, .f32⟩
  | .hbm, ⟨3, _⟩ => ⟨S1024x794, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S1024x794, .f32⟩
  | .hbm, ⟨10, _⟩ => ⟨S512x1024, .f32⟩
  | .hbm, ⟨11, _⟩ => ⟨S1024x794, .f32⟩
  | .hbm, ⟨12, _⟩ => ⟨S1024x794, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S794x1024, .f32⟩
  | .hbm, ⟨24, _⟩ => ⟨S794x1024, .bf16⟩
  | .hbm, ⟨25, _⟩ => ⟨S1024x512, .f32⟩
  | .hbm, ⟨26, _⟩ => ⟨S1024x512, .bf16⟩
  | .hbm, ⟨27, _⟩ => ⟨S1x1024, .f32⟩
  | .hbm, ⟨28, _⟩ => ⟨S1x512, .f32⟩
  | .hbm, ⟨29, _⟩ => ⟨S32768x512, .f32⟩
  | .local _ .vmem, ⟨0, _⟩ => ⟨S1024x794, .f32⟩
  | .local _ .vmem, ⟨1, _⟩ => ⟨S1024x794, .f32⟩
  | .local _ .vmem, ⟨2, _⟩ => ⟨S794x1024, .bf16⟩
  | .local _ .vmem, ⟨3, _⟩ => ⟨S1x1024, .f32⟩
  | .local _ .vmem, ⟨4, _⟩ => ⟨S1024x512, .bf16⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S32768x794, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x794 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S794x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S1024x794_S1024_d1 : S1024x794.ReducesTo [1] S1024
  h_S_ : 0 < S_.numel
  reducesTo_S512x1024_S512_d1 : S512x1024.ReducesTo [1] S512
  transposes_S1024x794_S794x1024_1_0 : S1024x794.Transposes [1, 0] S794x1024
  bitsLt_bf16_f32 : FTy.bits .bf16 < FTy.bits .f32
  transposes_S512x1024_S1024x512_1_0 : S512x1024.Transposes [1, 0] S1024x512
  shapeCasts_S1024_S1x1024 : S1024.ShapeCasts S1x1024
  shapeCasts_S512_S1x512 : S512.ShapeCasts S1x512
  inb_S1024x794_S1024x794_0_0 : ∀ a, (![0, 0] : Fin 2 → Nat) a + S1024x794.size a ≤ S1024x794.size a
  h_S1024x794 : 0 < S1024x794.numel
  inb_S794x1024_S794x1024_0_0 : ∀ a, (![0, 0] : Fin 2 → Nat) a + S794x1024.size a ≤ S794x1024.size a
  h_S794x1024 : 0 < S794x1024.numel
  shapeCasts_S794x1024_S794x1024 : S794x1024.ShapeCasts S794x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x794_S794x1024_S1024x1024_1_0_0_1_n_n_wf : DotDims.WF S1024x794 S794x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x794.size a ≤ S32768x794.size a
  hwx0_0 : ∀ i : grid0.Coords, EltTy.bits .f32 = 32 ∨ (Rect.block (s := S32768x794) S1024x794.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S794x1024.size a ≤ S794x1024.size a
  hwx0_1 : ∀ i : grid0.Coords, EltTy.bits .bf16 = 32 ∨ (Rect.block (s := S794x1024) S794x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S32768x512.size a
  hwx0_5 : ∀ i : grid0.Coords, EltTy.bits .f32 = 32 ∨ (Rect.block (s := S32768x512) S1024x512.size (cc0_transform_5 i) (hinb0_5 i)).WholeWords (EltTy.packing .f32)

variable [Facts₀]

def dot_S1024x794_S794x1024_S1024x1024_1_0_0_1_n_n : DotDims S1024x794 S794x1024 S1024x1024 where
  lhsContracting := [1]
  rhsContracting := [0]
  lhsNonContracting := [0]
  rhsNonContracting := [1]
  lhsBatch := []
  rhsBatch := []
  wf := dot_S1024x794_S794x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x794.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S794x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x794 : Shape := ⟨2, ![32768, 794]⟩
abbrev S1024x794 : Shape := ⟨2, ![1024, 794]⟩
abbrev S1024 : Shape := ⟨1, ![1024]⟩
abbrev S512x1024 : Shape := ⟨2, ![512, 1024]⟩
abbrev S512 : Shape := ⟨1, ![512]⟩
abbrev S794x1024 : Shape := ⟨2, ![794, 1024]⟩
abbrev S32768x1024 : Shape := ⟨2, ![32768, 1024]⟩
abbrev S1x1024 : Shape := ⟨2, ![1, 1024]⟩
abbrev S_ : Shape := ⟨0, ![]⟩
abbrev S1024x512 : Shape := ⟨2, ![1024, 512]⟩
abbrev S32768x512 : Shape := ⟨2, ![32768, 512]⟩
abbrev S1x512 : Shape := ⟨2, ![1, 512]⟩

abbrev nBuf : Space → Nat
  | .hbm => 47
  | .vmem => 0
  | .smem => 0
  | _ => 0

abbrev bufTy : (tb : Table) → Fin (tcTables nBuf tb) → BufTy
  | .hbm, ⟨0, _⟩ => ⟨S32768x794, .f32⟩
  | .hbm, ⟨1, _⟩ => ⟨S1024x794, .f32⟩
  | .hbm, ⟨2, _⟩ => ⟨S1024, .f32⟩
  | .hbm, ⟨3, _⟩ => ⟨S1024x794, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S1024x794, .f32⟩
  | .hbm, ⟨10, _⟩ => ⟨S512x1024, .f32⟩
  | .hbm, ⟨11, _⟩ => ⟨S1024x794, .f32⟩
  | .hbm, ⟨12, _⟩ => ⟨S1024x794, .f32⟩
  | .hbm, ⟨13, _⟩ => ⟨S794x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S512x1024, .f32⟩
  | .hbm, ⟨30, _⟩ => ⟨S512x1024, .f32⟩
  | .hbm, ⟨31, _⟩ => ⟨S1024x512, .f32⟩
  | .hbm, ⟨32, _⟩ => ⟨S32768x512, .f32⟩
  | .hbm, ⟨33, _⟩ => ⟨S1x512, .f32⟩
  | .hbm, ⟨34, _⟩ => ⟨S32768x512, .f32⟩
  | .hbm, ⟨35, _⟩ => ⟨S32768x512, .f32⟩
  | .hbm, ⟨36, _⟩ => ⟨S_, .f32⟩
  | .hbm, ⟨37, _⟩ => ⟨S512, .f32⟩
  | .hbm, ⟨38, _⟩ => ⟨S1x512, .f32⟩
  | .hbm, ⟨39, _⟩ => ⟨S32768x512, .f32⟩
  | .hbm, ⟨40, _⟩ => ⟨S32768x512, .f32⟩
  | .hbm, ⟨41, _⟩ => ⟨S1x512, .f32⟩
  | .hbm, ⟨42, _⟩ => ⟨S32768x512, .f32⟩
  | .hbm, ⟨43, _⟩ => ⟨S32768x512, .f32⟩
  | .hbm, ⟨44, _⟩ => ⟨S_, .f32⟩
  | .hbm, ⟨45, _⟩ => ⟨S32768x512, .f32⟩
  | .hbm, ⟨46, _⟩ => ⟨S32768x512, .f32⟩
  | _, _ => ⟨S32768x794, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_cst : Ref sig .tc := ⟨.hbm, 44, rfl⟩
abbrev main_call1_v0 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  transposes_S1024x794_S794x1024_1_0 : S1024x794.Transposes [1, 0] S794x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  reducesTo_S1024x794_S1024_d1 : S1024x794.ReducesTo [1] S1024
  h_S_ : 0 < S_.numel
  bcast_S_S32768x1024 : S_.BroadcastsInDim S32768x1024 (![] : Fin 0 → Fin S32768x1024.rank)
  transposes_S512x1024_S1024x512_1_0 : S512x1024.Transposes [1, 0] S1024x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  reducesTo_S512x1024_S512_d1 : S512x1024.ReducesTo [1] S512
  bcast_S_S32768x512 : S_.BroadcastsInDim S32768x512 (![] : Fin 0 → Fin S32768x512.rank)
  dot_S32768x794_S794x1024_S32768x1024_1_0_0_1_n_n_wf : DotDims.WF S32768x794 S794x1024 S32768x1024 [1] [0] [0] [1] [] []
  dot_S32768x1024_S1024x512_S32768x512_1_0_0_1_n_n_wf : DotDims.WF S32768x1024 S1024x512 S32768x512 [1] [0] [0] [1] [] []

variable [Facts₀]

def dot_S32768x794_S794x1024_S32768x1024_1_0_0_1_n_n : DotDims S32768x794 S794x1024 S32768x1024 where
  lhsContracting := [1]
  rhsContracting := [0]
  lhsNonContracting := [0]
  rhsNonContracting := [1]
  lhsBatch := []
  rhsBatch := []
  wf := dot_S32768x794_S794x1024_S32768x1024_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf

class Facts : Prop extends Facts₀ where

variable [Facts]
-- ==== Proof.Layer.lean ====
/-
  One dense layer followed by a rectifier, on the extended reals, and two of them composed.

  For an array `x : [M, K]`, weights `A : [K, N]`, a bias row `c : Fin N → EReal` and a floor `z`,
      layer x A c z [i, n] = max (∑ k, x[i, k] * A[k, n] + c n) z.
  The entry `[i, n]` depends on `x` only through its row `i`: the layer of a block of rows of `x` is
  the same rows of the layer of `x`. The same holds for two layers composed, because the second
  layer reads row `i` of the first layer's result, which reads row `i` of `x`.

  A bias that is added as three separate rows, one after the other, to the product is the bias
  row that is their sum: addition of extended reals is associative (no finiteness is needed).
-/
import Idealize.ShloMosaic.PureOps.Ideal
import Idealize.ShloMosaic.Lib.ValueIdx

noncomputable section

open scoped BigOperators

namespace Cert.Mlp

open Idealize.ShloMosaic Idealize.ShloMosaic.ValueIdx

/-- `max (x · A + c) z`, entry by entry: row `i` of `x` against column `n` of `A`, plus `c n`, floored at `z`. -/
def layer {M K N : Nat} (x : (⟨2, ![M, K]⟩ : Shape).Idx → EReal) (A : (⟨2, ![K, N]⟩ : Shape).Idx → EReal)
    (c : Fin N → EReal) (z : EReal) : (⟨2, ![M, N]⟩ : Shape).Idx → EReal :=
  fun j => max ((∑ k : Fin K, x (ix2 (j 0) k) * A (ix2 k (j 1))) + c (j 1)) z

theorem layer_apply {M K N : Nat} (x : (⟨2, ![M, K]⟩ : Shape).Idx → EReal) (A : (⟨2, ![K, N]⟩ : Shape).Idx → EReal)
    (c : Fin N → EReal) (z : EReal) (i : Fin M) (n : Fin N) :
    layer x A c z (ix2 i n) = max ((∑ k : Fin K, x (ix2 i k) * A (ix2 k n)) + c n) z := rfl

/-- Row `i'` of the layer of `x'` is row `i` of the layer of `x` when row `i'` of `x'` is row `i` of `x`. -/
theorem layer_row {M M' K N : Nat} (x : (⟨2, ![M, K]⟩ : Shape).Idx → EReal) (x' : (⟨2, ![M', K]⟩ : Shape).Idx → EReal)
    (A : (⟨2, ![K, N]⟩ : Shape).Idx → EReal) (c : Fin N → EReal) (z : EReal) (i : Fin M) (i' : Fin M')
    (h : ∀ k : Fin K, x (ix2 i k) = x' (ix2 i' k)) (n : Fin N) :
    layer x A c z (ix2 i n) = layer x' A c z (ix2 i' n) := by
  rw [layer_apply, layer_apply]
  simp only [h]

/-- The layer depends on its weights and its bias row only through their entries. -/
theorem layer_congr {M K N : Nat} (x : (⟨2, ![M, K]⟩ : Shape).Idx → EReal) (A A' : (⟨2, ![K, N]⟩ : Shape).Idx → EReal)
    (c c' : Fin N → EReal) (z : EReal) (hA : ∀ (k : Fin K) (n : Fin N), A (ix2 k n) = A' (ix2 k n)) (hc : ∀ n, c n = c' n) :
    layer x A c z = layer x A' c' z := by
  funext j
  obtain ⟨p, q, rfl⟩ : ∃ (p : Fin M) (q : Fin N), j = ix2 p q := ⟨j 0, j 1, eq_ix2 j⟩
  rw [layer_apply, layer_apply]
  simp only [hA, hc]

/-- A bias added as three rows in turn is the one row `(b + r) + e`: associativity of `+` on the extended reals. -/
theorem layer_bias3 {M K N : Nat} (x : (⟨2, ![M, K]⟩ : Shape).Idx → EReal) (A : (⟨2, ![K, N]⟩ : Shape).Idx → EReal)
    (b r e : Fin N → EReal) (z : EReal) (i : Fin M) (n : Fin N) :
    max ((((∑ k : Fin K, x (ix2 i k) * A (ix2 k n)) + b n) + r n) + e n) z
      = layer x A (fun n => (b n + r n) + e n) z (ix2 i n) := by
  rw [layer_apply]
  simp only [add_assoc]

/-- Two layers, the second applied to the first one's result. -/
def mlp2 {M K H N : Nat} (x : (⟨2, ![M, K]⟩ : Shape).Idx → EReal) (A₁ : (⟨2, ![K, H]⟩ : Shape).Idx → EReal) (c₁ : Fin H → EReal)
    (A₂ : (⟨2, ![H, N]⟩ : Shape).Idx → EReal) (c₂ : Fin N → EReal) (z : EReal) : (⟨2, ![M, N]⟩ : Shape).Idx → EReal :=
  layer (layer x A₁ c₁ z) A₂ c₂ z

/-- Two layers composed are row-local as one layer is. -/
theorem mlp2_row {M M' K H N : Nat} (x : (⟨2, ![M, K]⟩ : Shape).Idx → EReal) (x' : (⟨2, ![M', K]⟩ : Shape).Idx → EReal)
    (A₁ : (⟨2, ![K, H]⟩ : Shape).Idx → EReal) (c₁ : Fin H → EReal) (A₂ : (⟨2, ![H, N]⟩ : Shape).Idx → EReal) (c₂ : Fin N → EReal)
    (z : EReal) (i : Fin M) (i' : Fin M') (h : ∀ k : Fin K, x (ix2 i k) = x' (ix2 i' k)) (n : Fin N) :
    mlp2 x A₁ c₁ A₂ c₂ z (ix2 i n) = mlp2 x' A₁ c₁ A₂ c₂ z (ix2 i' n) :=
  layer_row _ _ A₂ c₂ z i i' (fun k => layer_row x x' A₁ c₁ z i i' h k) n

end Cert.Mlp

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Payload.lean ====
/-
  What the kernel body stores, entry by entry, at the ideal instance.

  The body loads a block `v0 : [1024, 794]` of rows of the input, the whole first weight array
  `v2 : [794, 1024]` with its bias row `v5 : [1, 1024]`, and the whole second weight array
  `v12 : [1024, 512]` with its bias row `v15 : [1, 512]`. It multiplies, adds the bias row to every
  row, floors at zero, and does the same once more. A change of float format is the identity on the
  extended reals and a product accumulated into zeros is the plain sum over the contracted index,
  so the stored value at `[r, o]` is the two-layer function of `Layer.lean` of those five arrays.
-/
import proofs.«107079_j46617575030817_1_alg».proof.Proof.Gen.KernelIdeal.Skeleton
import proofs.«107079_j46617575030817_1_alg».proof.Proof.Layer
import proofs.«107079_j46617575030817_1_alg».proof.Proof.LibDot2
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx

/-- The rectifier's floor: the word of `+0.0`, kept as a word (both programs floor at the same word). -/
abbrev floor0 : EReal := Ideal.ofBits .f32 0x00000000#32

/-- A `[1, n]` row broadcast over `m` rows, read at `[p, q]`, is the row's entry `q`. -/
theorem bcastRow_apply {m n : Nat} (v : (⟨2, ![1, n]⟩ : Shape).Idx → EReal)
    (h : (⟨2, ![1, n]⟩ : Shape).Broadcasts ⟨2, ![m, n]⟩) (p : Fin m) (q : Fin n) :
    broadcastTo ⟨2, ![m, n]⟩ v h (ix2 p q) = v (ix2 0 q) := by
  refine broadcastTo_apply v h (ix2 p q) (ix2 0 q) (fun a => ?_)
  match a with
  | ⟨0, _⟩ => show (0 : Nat) = if (1 : Nat) = 1 then 0 else _; rw [if_pos rfl]
  | ⟨1, _⟩ =>
    show q.val = if n = 1 then 0 else q.val
    split
    · have := q.isLt; omega
    · rfl

/-- The first product at `[p, k]`: row `p` of the block against column `k` of the first weights. -/
theorem mm1_apply (l : FVec Ideal S1024x794 .bf16) (w : FVec Ideal S794x1024 .bf16) (p : Fin 1024) (k : Fin 1024) :
    matmul dot_S1024x794_S794x1024_S1024x1024_1_0_0_1_n_n none l w (constant S1024x1024 .f32 0x00000000#32) (ix2 p k)
      = ∑ j : Fin 794, l (ix2 p j) * w (ix2 j k) :=
  Dot2.matmul_zero_mm_apply dot_S1024x794_S794x1024_S1024x1024_1_0_0_1_n_n.wf none l w p k

/-- The second product at `[p, o]`: row `p` of the hidden block against column `o` of the second weights. -/
theorem mm2_apply (l : FVec Ideal S1024x1024 .bf16) (w : FVec Ideal S1024x512 .bf16) (p : Fin 1024) (o : Fin 512) :
    matmul dot_S1024x1024_S1024x512_S1024x512_1_0_0_1_n_n none l w (constant S1024x512 .f32 0x00000000#32) (ix2 p o)
      = ∑ k : Fin 1024, l (ix2 p k) * w (ix2 k o) :=
  Dot2.matmul_zero_mm_apply dot_S1024x1024_S1024x512_S1024x512_1_0_0_1_n_n.wf none l w p o

/-- The stored value at `[r, o]` is the two-layer function of the five loaded arrays. -/
theorem pay_apply (v0 : Vec Ideal S1024x794 .f32) (v2 : Vec Ideal S794x1024 .bf16) (v5 : Vec Ideal S1x1024 .f32)
    (v12 : Vec Ideal S1024x512 .bf16) (v15 : Vec Ideal S1x512 .f32) (r : Fin 1024) (o : Fin 512) :
    k0_pay1 (F := Ideal) v0 v2 v5 v12 v15 (ix2 r o)
      = Cert.Mlp.mlp2 v0 v2 (fun n => v5 (ix2 0 n)) v12 (fun n => v15 (ix2 0 n)) floor0 (ix2 r o) := by
  unfold k0_pay1
  simp only [shapeCast_self]
  rw [maximumf_apply, addf_apply, mm2_apply, bcastRow_apply, broadcast_apply]
  unfold Cert.Mlp.mlp2
  rw [Cert.Mlp.layer_apply]
  refine congrArg (fun s => max (s + v15 (ix2 0 o)) floor0) (Finset.sum_congr rfl fun k _ => ?_)
  rw [truncf_apply, maximumf_apply, addf_apply, mm1_apply, bcastRow_apply, broadcast_apply, Cert.Mlp.layer_apply]
  refine congrArg (fun s => max (s + v5 (ix2 0 k)) floor0 * v12 (ix2 k o)) (Finset.sum_congr rfl fun j _ => ?_)
  rw [truncf_apply]

end Cert.KernelIdeal.Body

end
-- ==== Proof.Entry.lean ====
/-
  The arrays the kernel's region is launched on, as the host operations before it leave them.

  Before the region @main masks the two weight arrays entry by entry, transposes them (and changes
  their format, which is the identity on the extended reals), and builds each bias row as
  `(b + rowsum (Wc ∘ mask)) + bc`, reshaped from `[n]` to `[1, n]`. Read at an index:
    the first weights at `[j, k]`   are  `W1[k, j] * MW0[k, j]`,
    the second weights at `[k, o]`  are  `W2[o, k] * MW1[o, k]`,
    a bias row at `[0, n]`          is   `(b[n] + r[n]) + bc[n]`, `r` the host's row sum.
  The input array itself is staged as it was passed.
-/
import proofs.«107079_j46617575030817_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The eleven argument arrays, each at its literal type -/

abbrev xIn (c : Dev nD) : FVec Ideal S32768x794 .f32 := m ((c : Thread nD τ).loc main_arg0)
abbrev W1 (c : Dev nD) : FVec Ideal S1024x794 .f32 := m ((c : Thread nD τ).loc main_arg1)
abbrev b1 (c : Dev nD) : FVec Ideal S1024 .f32 := m ((c : Thread nD τ).loc main_arg2)
abbrev Wc1 (c : Dev nD) : FVec Ideal S1024x794 .f32 := m ((c : Thread nD τ).loc main_arg3)
abbrev bc1 (c : Dev nD) : FVec Ideal S1024 .f32 := m ((c : Thread nD τ).loc main_arg4)
abbrev W2 (c : Dev nD) : FVec Ideal S512x1024 .f32 := m ((c : Thread nD τ).loc main_arg5)
abbrev b2 (c : Dev nD) : FVec Ideal S512 .f32 := m ((c : Thread nD τ).loc main_arg6)
abbrev Wc2 (c : Dev nD) : FVec Ideal S512x1024 .f32 := m ((c : Thread nD τ).loc main_arg7)
abbrev bc2 (c : Dev nD) : FVec Ideal S512 .f32 := m ((c : Thread nD τ).loc main_arg8)
abbrev MW0 (c : Dev nD) : FVec Ideal S1024x794 .f32 := m ((c : Thread nD τ).loc main_arg9)
abbrev MW1 (c : Dev nD) : FVec Ideal S512x1024 .f32 := m ((c : Thread nD τ).loc main_arg10)

/-! ## The five arrays the windows stage, each at its literal type -/

/-- Window 0's array: the input. -/
abbrev xArr (c : Dev nD) : FVec Ideal S32768x794 .f32 := V m c main_arg0
/-- Window 1's array: the first weights as the body multiplies by them, `[794, 1024]`. -/
abbrev A1 (c : Dev nD) : FVec Ideal S794x1024 .bf16 := V m c main_v11
/-- Window 2's array: the first bias row, `[1, 1024]`. -/
abbrev C1 (c : Dev nD) : FVec Ideal S1x1024 .f32 := V m c main_v14
/-- Window 3's array: the second weights as the body multiplies by them, `[1024, 512]`. -/
abbrev A2 (c : Dev nD) : FVec Ideal S1024x512 .bf16 := V m c main_v13
/-- Window 4's array: the second bias row, `[1, 512]`. -/
abbrev C2 (c : Dev nD) : FVec Ideal S1x512 .f32 := V m c main_v15

/-- The host's sum of each row of the masked first correction weights (the reduction's initial value is the word of zero). -/
abbrev rsum1 (c : Dev nD) : FVec Ideal S1024 .f32 :=
  Host.reduceAdd (F := Ideal) (mulf (Wc1 m c) (MW0 m c)) (constant (F := Ideal) S_ .f32 0x00000000#32) reducesTo_S1024x794_S1024_d1 h_S_

/-- The host's sum of each row of the masked second correction weights. -/
abbrev rsum2 (c : Dev nD) : FVec Ideal S512 .f32 :=
  Host.reduceAdd (F := Ideal) (mulf (Wc2 m c) (MW1 m c)) (constant (F := Ideal) S_ .f32 0x00000000#32) reducesTo_S512x1024_S512_d1 h_S_

theorem xArr_eq (c : Dev nD) : xArr m c = xIn m c := V_main_arg0 m c

/-- Window 1's array: the masked first weights, transposed. -/
theorem A1_eq (c : Dev nD) : A1 m c
    = truncf (F := Ideal) .bf16 (transpose S794x1024 [1, 0] (mulf (W1 m c) (MW0 m c)) transposes_S1024x794_S794x1024_1_0) bitsLt_bf16_f32 := by
  show V m c main_v11 = _
  dsimp only [V, hostOps0]; after_results

/-- Window 3's array: the masked second weights, transposed. -/
theorem A2_eq (c : Dev nD) : A2 m c
    = truncf (F := Ideal) .bf16 (transpose S1024x512 [1, 0] (mulf (W2 m c) (MW1 m c)) transposes_S512x1024_S1024x512_1_0) bitsLt_bf16_f32 := by
  show V m c main_v13 = _
  dsimp only [V, hostOps0]; after_results

/-- Window 2's array: the first bias row `(b1 + rowsum) + bc1`, as `[1, 1024]`. -/
theorem C1_eq (c : Dev nD) : C1 m c
    = shapeCast S1x1024 (addf (addf (b1 m c) (rsum1 m c)) (bc1 m c)) shapeCasts_S1024_S1x1024 := by
  show V m c main_v14 = _
  dsimp only [V, hostOps0]; after_results; rfl

/-- Window 4's array: the second bias row `(b2 + rowsum) + bc2`, as `[1, 512]`. -/
theorem C2_eq (c : Dev nD) : C2 m c
    = shapeCast S1x512 (addf (addf (b2 m c) (rsum2 m c)) (bc2 m c)) shapeCasts_S512_S1x512 := by
  show V m c main_v15 = _
  dsimp only [V, hostOps0]; after_results; rfl

/-- The first weights at `[j, k]`. -/
theorem A1_apply (c : Dev nD) (j : Fin 794) (k : Fin 1024) :
    A1 m c (ix2 j k) = W1 m c (ix2 k j) * MW0 m c (ix2 k j) := by
  rw [A1_eq, truncf_apply,
    transpose_apply [1, 0] _ transposes_S1024x794_S794x1024_1_0 (ix2 j k) (ix2 k j) (fun b => match b with
      | ⟨0, _⟩ => rfl
      | ⟨1, _⟩ => rfl)]
  rfl

/-- The second weights at `[k, o]`. -/
theorem A2_apply (c : Dev nD) (k : Fin 1024) (o : Fin 512) :
    A2 m c (ix2 k o) = W2 m c (ix2 o k) * MW1 m c (ix2 o k) := by
  rw [A2_eq, truncf_apply,
    transpose_apply [1, 0] _ transposes_S512x1024_S1024x512_1_0 (ix2 k o) (ix2 o k) (fun b => match b with
      | ⟨0, _⟩ => rfl
      | ⟨1, _⟩ => rfl)]
  rfl

/-- The first bias row at `[0, n]`. -/
theorem C1_apply (c : Dev nD) (n : Fin 1024) :
    C1 m c (ix2 0 n) = (b1 m c (ix1 n) + rsum1 m c (ix1 n)) + bc1 m c (ix1 n) := by
  rw [C1_eq, shapeCast_apply _ shapeCasts_S1024_S1x1024 (ix2 0 n) (ix1 n) (by
    rw [Shape.rowMajor_val_one, Shape.rowMajor_val_two]; show n.val = 0 * 1024 + n.val; omega)]
  rfl

/-- The second bias row at `[0, n]`. -/
theorem C2_apply (c : Dev nD) (n : Fin 512) :
    C2 m c (ix2 0 n) = (b2 m c (ix1 n) + rsum2 m c (ix1 n)) + bc2 m c (ix1 n) := by
  rw [C2_eq, shapeCast_apply _ shapeCasts_S512_S1x512 (ix2 0 n) (ix1 n) (by
    rw [Shape.rowMajor_val_one, Shape.rowMajor_val_two]; show n.val = 0 * 512 + n.val; omega)]
  rfl

end Cert.KernelIdeal.Entry

end
-- ==== Proof.Blocks.lean ====
/-
  From what each grid point writes back to the whole output array.

  Grid point `t` (of 32) stages rows `1024 t … 1024 t + 1023` of the input, and the four weight
  and bias arrays whole; it writes back rows `1024 t … 1024 t + 1023` of the output. What it
  writes at `[r, o]` is the two-layer function of its staged arrays (`Payload.lean`), and that
  function is row-local (`Layer.lean`): it is entry `[1024 t + r, o]` of the two-layer function
  of the WHOLE input. The 32 blocks tile the 32768 rows, so after the run the output array is that
  function everywhere.
-/
import proofs.«107079_j46617575030817_1_alg».proof.Proof.Gen.KernelIdeal.Value
import proofs.«107079_j46617575030817_1_alg».proof.Proof.Payload
import proofs.«107079_j46617575030817_1_alg».proof.Proof.Entry

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The body's stored value at an index `y` of a block, given that the block of input rows holds row `i 0` of the whole
    input `x` in its row `y 0` and that the other four loaded arrays are the whole arrays: it is entry `i` of the
    two-layer function of `x`, `i` having `y`'s column. -/
theorem block_at (x : S32768x794.Idx → EReal) (A₁ : S794x1024.Idx → EReal) (c₁ : S1x1024.Idx → EReal)
    (A₂ : S1024x512.Idx → EReal) (c₂ : S1x512.Idx → EReal)
    (v0 : Vec Ideal S1024x794 .f32) (v1 : Vec Ideal S794x1024 .bf16) (v2 : Vec Ideal S1x1024 .f32)
    (v3 : Vec Ideal S1024x512 .bf16) (v4 : Vec Ideal S1x512 .f32)
    (h1 : v1 = A₁) (h2 : v2 = c₁) (h3 : v3 = A₂) (h4 : v4 = c₂)
    (y : S1024x512.Idx) (i : S32768x512.Idx)
    (h0 : ∀ j : Fin 794, v0 (ix2 (y 0) j) = x (ix2 (i 0) j)) (hi : (i 1).val = (y 1).val) :
    k0_pay1 (F := Ideal) v0 v1 v2 v3 v4 y
      = Cert.Mlp.mlp2 x A₁ (fun n => c₁ (ix2 0 n)) A₂ (fun n => c₂ (ix2 0 n)) Body.floor0 i := by
  subst h1 h2 h3 h4
  obtain ⟨r, o, rfl⟩ : ∃ (r : Fin 1024) (o : Fin 512), y = ix2 r o := ⟨y 0, y 1, eq_ix2 y⟩
  obtain ⟨p, q, rfl⟩ : ∃ (p : Fin 32768) (q : Fin 512), i = ix2 p q := ⟨i 0, i 1, eq_ix2 i⟩
  obtain rfl : q = o := Fin.ext hi
  rw [Body.pay_apply]
  exact Cert.Mlp.mlp2_row v0 x v1 _ v3 _ Body.floor0 r p h0 q

variable (m : (ℓ : Loc nD τ sig) → Buf (Elt Ideal) ℓ) (ρ : Dev nD → PrngReg)

/-- The output array after the run: the two-layer function of the arrays the region is launched on. -/
abbrev out (c : Dev nD) : S32768x512.Idx → EReal :=
  Cert.Mlp.mlp2 (M := 32768) (K := 794) (H := 1024) (N := 512) (Entry.xArr m c) (Entry.A1 m c)
    (fun n => Entry.C1 m c (ix2 0 n)) (Entry.A2 m c) (fun n => Entry.C2 m c (ix2 0 n)) Body.floor0

theorem origin : (![0, 0] : Fin 2 → Nat) = fun _ => 0 := funext fun a => by fin_cases a <;> rfl

/-- The printed index maps over the 32 grid points: the input's and the output's row blocks are block `t`, everything
    else is block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block of 1024 output rows is some point's. -/
theorem idx_onto : ∀ q : Fin 32, ∃ t : Fin cfg0.N, win0_5.index t = ![q.val, 0] :=
  (by decide +kernel : ∀ q : Fin 32, ∃ t : Fin grid0.N, win0_5.index t = ![q.val, 0])

/-- A window whose one block is its whole array stages that array. -/
theorem whole1 (c : Dev nD) (t : Fin cfg0.N) : iblk m c 1 t = Entry.A1 m c := by
  obtain ⟨_, _, e0, e1, _⟩ := idx_facts t
  funext j
  show Entry.A1 m c (((cfg0.win 1).blk t).view.emb j) = Entry.A1 m c j
  refine congrArg _ (funext fun a => Fin.ext ?_)
  match a with
  | ⟨0, _⟩ => show win0_1.index t (0 : Fin 2) * 794 + 1 * (j 0).val = (j 0).val; omega
  | ⟨1, _⟩ => show win0_1.index t (1 : Fin 2) * 1024 + 1 * (j 1).val = (j 1).val; omega

theorem whole2 (c : Dev nD) (t : Fin cfg0.N) : iblk m c 2 t = Entry.C1 m c := by
  obtain ⟨_, _, _, _, e0, e1, _⟩ := idx_facts t
  funext j
  show Entry.C1 m c (((cfg0.win 2).blk t).view.emb j) = Entry.C1 m c j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 1024 + 1 * (j 1).val = (j 1).val; omega

theorem whole3 (c : Dev nD) (t : Fin cfg0.N) : iblk m c 3 t = Entry.A2 m c := by
  obtain ⟨_, _, _, _, _, _, e0, e1, _⟩ := idx_facts t
  funext j
  show Entry.A2 m c (((cfg0.win 3).blk t).view.emb j) = Entry.A2 m c j
  refine congrArg _ (funext fun a => Fin.ext ?_)
  match a with
  | ⟨0, _⟩ => show win0_3.index t (0 : Fin 2) * 1024 + 1 * (j 0).val = (j 0).val; omega
  | ⟨1, _⟩ => show win0_3.index t (1 : Fin 2) * 512 + 1 * (j 1).val = (j 1).val; omega

theorem whole4 (c : Dev nD) (t : Fin cfg0.N) : iblk m c 4 t = Entry.C2 m c := by
  obtain ⟨_, _, _, _, _, _, _, _, e0, e1, _⟩ := idx_facts t
  funext j
  show Entry.C2 m c (((cfg0.win 4).blk t).view.emb j) = Entry.C2 m c j
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 512 + 1 * (j 1).val = (j 1).val; omega

/-- What point `t` writes back is block `t` of `out`. -/
theorem flushed_eq (c : Dev nD) (t : Fin cfg0.N) :
    (dats m 0 c).flushed 5 t = ((cfg0.win 5).blk t).view.read (Elt Ideal) (out m c) := by
  show (cfg0.win 5).cut (grid0.coords t) ((dats m 0 c).after 5 t) = _
  rw [after0_5]
  unfold out0_5
  rw [View.canon_unit_zero origin]
  simp only [View.ld_unit_zero (S := S1024x794) origin, View.ld_unit_zero (S := S794x1024) origin,
    View.ld_unit_zero (S := S1x1024) origin, View.ld_unit_zero (S := S1024x512) origin,
    View.ld_unit_zero (S := S1x512) origin]
  obtain ⟨e00, e01, _, _, _, _, _, _, _, _, e50, e51⟩ := idx_facts t
  funext y
  show k0_pay1 (F := Ideal) (iblk m c 0 t) (iblk m c 1 t) (iblk m c 2 t) (iblk m c 3 t) (iblk m c 4 t) y
    = out m c (((cfg0.win 5).blk t).view.emb y)
  refine block_at (Entry.xArr m c) (Entry.A1 m c) (Entry.C1 m c) (Entry.A2 m c) (Entry.C2 m c)
    (iblk m c 0 t) (iblk m c 1 t) (iblk m c 2 t) (iblk m c 3 t) (iblk m c 4 t)
    (whole1 m c t) (whole2 m c t) (whole3 m c t) (whole4 m c t) y (((cfg0.win 5).blk t).view.emb y) (fun j => ?_) ?_
  · show Entry.xArr m c (((cfg0.win 0).blk t).view.emb (ix2 (y 0) j))
      = Entry.xArr m c (ix2 ((((cfg0.win 5).blk t).view.emb y) 0) j)
    refine congrArg _ (funext fun a => Fin.ext ?_)
    match a with
    | ⟨0, _⟩ => show win0_0.index t (0 : Fin 2) * 1024 + 1 * (y 0).val = win0_5.index t (0 : Fin 2) * 1024 + 1 * (y 0).val; omega
    | ⟨1, _⟩ => show win0_0.index t (1 : Fin 2) * 794 + 1 * j.val = j.val; omega
  · show win0_5.index t (1 : Fin 2) * 512 + 1 * (y 1).val = (y 1).val
    omega

/-- An index of the output array is in point `t`'s block iff each coordinate is in the block's range on its axis. -/
theorem mem_blk (t : Fin cfg0.N) (i : S32768x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v16).slice (win0_5.rect t)).set ↔ _
  rw [View.set_slice_whole, Rect.mem_set_unit]
  exact Iff.rfl

/-- The 32 row blocks cover the output array: row `i` is in block `i / 1024`. -/
theorem cover (i : S32768x512.Idx) : ∃ t : Fin cfg0.N, (cfg0.win 5).flush t = true ∧ i ∈ ((cfg0.win 5).blk t).view.set := by
  have hi0 : (i 0).val < 32768 := (i 0).isLt
  have hi1 : (i 1).val < 512 := (i 1).isLt
  obtain ⟨t, ht⟩ := idx_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

/-- The output array after the run is `out`. -/
theorem final (c : Dev nD) : (dats m 0 c).arrAt 5 cfg0.N = out m c :=
  (dats m 0 c).arrAt_eq_of_cover 5 (out m c) (fun t _ => flushed_eq m c t) cover

/-- The kernel's run with its result named: the output array ends at `out`, the arguments unchanged. -/
theorem run : θ_run defs (onTc (τ := τ) (main (F := Ideal))) ⟨m, fun _ => 0, ρ⟩ fun r => ∀ c : Dev nD,
      r.2.mem ((c : Thread nD τ).loc main_v16) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Blocks

end
-- ==== Proof.RefValue.lean ====
/-
  The reference, entry by entry, at the ideal instance.

  The reference masks and transposes each weight array on the host, takes the general dot product
  with it, adds three bias rows one after the other (`b`, the row sums of the masked correction
  weights, `bc`), each broadcast over all rows, and floors at zero; then the same once more on the
  result. The general dot product is the plain sum over the contracted index and a broadcast row
  read at `[p, n]` is the row's entry `n`, so each stage is the layer of `Layer.lean` with the bias
  row `(b + rowsum) + bc` (associativity of `+`), and the result is the two layers composed.
-/
import proofs.«107079_j46617575030817_1_alg».proof.Proof.Gen.ReferenceIdeal.Read
import proofs.«107079_j46617575030817_1_alg».proof.Proof.Layer

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The index maps of the generated read lemmas, at explicit coordinates -/

theorem lidx3 (p : Fin 32768) (k : Fin 1024) (j : Fin 794) : lidx_main_v3 (ix2 p k) j = ix2 p j :=
  funext fun a => Fin.ext (by match a with | ⟨0, _⟩ => rfl | ⟨1, _⟩ => rfl)
theorem ridx3 (p : Fin 32768) (k : Fin 1024) (j : Fin 794) : ridx_main_v3 (ix2 p k) j = ix2 j k :=
  funext fun a => Fin.ext (by match a with | ⟨0, _⟩ => rfl | ⟨1, _⟩ => rfl)
theorem lidx18 (p : Fin 32768) (o : Fin 512) (k : Fin 1024) : lidx_main_v18 (ix2 p o) k = ix2 p k :=
  funext fun a => Fin.ext (by match a with | ⟨0, _⟩ => rfl | ⟨1, _⟩ => rfl)
theorem ridx18 (p : Fin 32768) (o : Fin 512) (k : Fin 1024) : ridx_main_v18 (ix2 p o) k = ix2 k o :=
  funext fun a => Fin.ext (by match a with | ⟨0, _⟩ => rfl | ⟨1, _⟩ => rfl)
/-- A `[1024]` row broadcast to `[1, 1024]` and then over all rows is read at `[p, k]` at its entry `k`. -/
theorem row1 (p : Fin 32768) (k : Fin 1024) : idx_main_v4 (idx_main_v5 (ix2 p k)) = ix1 k :=
  funext fun a => Fin.ext (by match a with | ⟨0, _⟩ => rfl)
theorem row1' (p : Fin 32768) (k : Fin 1024) : idx_main_v8 (idx_main_v9 (ix2 p k)) = ix1 k :=
  funext fun a => Fin.ext (by match a with | ⟨0, _⟩ => rfl)
theorem row1'' (p : Fin 32768) (k : Fin 1024) : idx_main_v11 (idx_main_v12 (ix2 p k)) = ix1 k :=
  funext fun a => Fin.ext (by match a with | ⟨0, _⟩ => rfl)
theorem row2 (p : Fin 32768) (o : Fin 512) : idx_main_v19 (idx_main_v20 (ix2 p o)) = ix1 o :=
  funext fun a => Fin.ext (by match a with | ⟨0, _⟩ => rfl)
theorem row2' (p : Fin 32768) (o : Fin 512) : idx_main_v23 (idx_main_v24 (ix2 p o)) = ix1 o :=
  funext fun a => Fin.ext (by match a with | ⟨0, _⟩ => rfl)
theorem row2'' (p : Fin 32768) (o : Fin 512) : idx_main_v26 (idx_main_v27 (ix2 p o)) = ix1 o :=
  funext fun a => Fin.ext (by match a with | ⟨0, _⟩ => rfl)

/-! ## The two stages -/

/-- The first bias row of the reference: `(b1 + rowsum (Wc1 ∘ MW0)) + bc1`. -/
abbrev bias1 (x2 : FVec Ideal S1024 .f32) (x3 : FVec Ideal S1024x794 .f32) (x4 : FVec Ideal S1024 .f32) (x9 : FVec Ideal S1024x794 .f32) :
    Fin 1024 → EReal := fun n => (x2 (ix1 n) + val_main_v7 (F := Ideal) x3 x9 (ix1 n)) + x4 (ix1 n)

/-- The second bias row of the reference: `(b2 + rowsum (Wc2 ∘ MW1)) + bc2`. -/
abbrev bias2 (x6 : FVec Ideal S512 .f32) (x7 : FVec Ideal S512x1024 .f32) (x8 : FVec Ideal S512 .f32) (x10 : FVec Ideal S512x1024 .f32) :
    Fin 512 → EReal := fun n => (x6 (ix1 n) + val_main_v22 (F := Ideal) x7 x10 (ix1 n)) + x8 (ix1 n)

/-- The hidden array at `[p, k]`: the first layer of the input. -/
theorem hidden_apply (x0 : FVec Ideal S32768x794 .f32) (x1 : FVec Ideal S1024x794 .f32) (x2 : FVec Ideal S1024 .f32) (x3 : FVec Ideal S1024x794 .f32) (x4 : FVec Ideal S1024 .f32) (x9 : FVec Ideal S1024x794 .f32) (p : Fin 32768) (k : Fin 1024) :
    val_main_v14 (F := Ideal) x0 x1 x2 x3 x4 x9 (ix2 p k)
      = Cert.Mlp.layer (M := 32768) (K := 794) (N := 1024) x0 (val_main_v2 (F := Ideal) x1 x9) (bias1 x2 x3 x4 x9)
          (Ideal.ofBits .f32 0x00000000#32) (ix2 p k) := by
  rw [val_main_v14_apply, val_main_v13_apply, val_main_v10_apply, val_main_v6_apply, val_main_v3_apply,
    val_main_v5_apply, val_main_v4_apply, val_main_v9_apply, val_main_v8_apply, val_main_v12_apply, val_main_v11_apply,
    val_main_call0_v0_apply, val_main_call0_cst_apply, row1, row1', row1'']
  simp only [lidx3, ridx3]
  exact Cert.Mlp.layer_bias3 (M := 32768) (K := 794) (N := 1024) x0 (val_main_v2 (F := Ideal) x1 x9)
    (fun n => x2 (ix1 n)) (fun n => val_main_v7 (F := Ideal) x3 x9 (ix1 n)) (fun n => x4 (ix1 n))
    (Ideal.ofBits .f32 0x00000000#32) p k

/-- The result at `[p, o]`: the second layer of the hidden array. -/
theorem result_apply (x0 : FVec Ideal S32768x794 .f32) (x1 : FVec Ideal S1024x794 .f32) (x2 : FVec Ideal S1024 .f32) (x3 : FVec Ideal S1024x794 .f32) (x4 : FVec Ideal S1024 .f32) (x9 : FVec Ideal S1024x794 .f32) (x5 : FVec Ideal S512x1024 .f32) (x6 : FVec Ideal S512 .f32) (x7 : FVec Ideal S512x1024 .f32) (x8 : FVec Ideal S512 .f32) (x10 : FVec Ideal S512x1024 .f32) (p : Fin 32768) (o : Fin 512) :
    val_main_v29 (F := Ideal) x0 x1 x2 x3 x4 x5 x6 x7 x8 x9 x10 (ix2 p o)
      = Cert.Mlp.layer (M := 32768) (K := 1024) (N := 512) (val_main_v14 (F := Ideal) x0 x1 x2 x3 x4 x9) (val_main_v17 (F := Ideal) x5 x10)
          (bias2 x6 x7 x8 x10) (Ideal.ofBits .f32 0x00000000#32) (ix2 p o) := by
  rw [val_main_v29_apply, val_main_v28_apply, val_main_v25_apply, val_main_v21_apply, val_main_v18_apply,
    val_main_v20_apply, val_main_v19_apply, val_main_v24_apply, val_main_v23_apply, val_main_v27_apply, val_main_v26_apply,
    val_main_call1_v0_apply, val_main_call1_cst_apply, row2, row2', row2'']
  simp only [lidx18, ridx18]
  exact Cert.Mlp.layer_bias3 (M := 32768) (K := 1024) (N := 512) (val_main_v14 (F := Ideal) x0 x1 x2 x3 x4 x9) (val_main_v17 (F := Ideal) x5 x10)
    (fun n => x6 (ix1 n)) (fun n => val_main_v22 (F := Ideal) x7 x10 (ix1 n)) (fun n => x8 (ix1 n))
    (Ideal.ofBits .f32 0x00000000#32) p o

/-- The reference's result is the two layers composed. -/
theorem result_eq (x0 : FVec Ideal S32768x794 .f32) (x1 : FVec Ideal S1024x794 .f32) (x2 : FVec Ideal S1024 .f32) (x3 : FVec Ideal S1024x794 .f32) (x4 : FVec Ideal S1024 .f32) (x9 : FVec Ideal S1024x794 .f32) (x5 : FVec Ideal S512x1024 .f32) (x6 : FVec Ideal S512 .f32) (x7 : FVec Ideal S512x1024 .f32) (x8 : FVec Ideal S512 .f32) (x10 : FVec Ideal S512x1024 .f32) :
    val_main_v29 (F := Ideal) x0 x1 x2 x3 x4 x5 x6 x7 x8 x9 x10
      = Cert.Mlp.mlp2 (M := 32768) (K := 794) (H := 1024) (N := 512) x0 (val_main_v2 (F := Ideal) x1 x9) (bias1 x2 x3 x4 x9)
          (val_main_v17 (F := Ideal) x5 x10) (bias2 x6 x7 x8 x10) (Ideal.ofBits .f32 0x00000000#32) := by
  funext i
  obtain ⟨p, o, rfl⟩ : ∃ (p : Fin 32768) (o : Fin 512), i = ix2 p o := ⟨i 0, i 1, eq_ix2 i⟩
  rw [result_apply]
  unfold Cert.Mlp.mlp2
  rw [Cert.Mlp.layer_apply, Cert.Mlp.layer_apply]
  simp only [hidden_apply]

/-- The reference's first weights at `[j, k]`: `W1[k, j] * MW0[k, j]`. -/
theorem w1_apply (x1 x9 : FVec Ideal S1024x794 .f32) (j : Fin 794) (k : Fin 1024) :
    val_main_v2 (F := Ideal) x1 x9 (ix2 j k) = x1 (ix2 k j) * x9 (ix2 k j) := by
  rw [val_main_v2_apply, val_main_v0_apply]
  have e : idx_main_v2 (ix2 j k) = ix2 k j := funext fun a => Fin.ext (by match a with | ⟨0, _⟩ => rfl | ⟨1, _⟩ => rfl)
  rw [e]; rfl

/-- The reference's second weights at `[k, o]`: `W2[o, k] * MW1[o, k]`. -/
theorem w2_apply (x5 x10 : FVec Ideal S512x1024 .f32) (k : Fin 1024) (o : Fin 512) :
    val_main_v17 (F := Ideal) x5 x10 (ix2 k o) = x5 (ix2 o k) * x10 (ix2 o k) := by
  rw [val_main_v17_apply, val_main_v15_apply]
  have e : idx_main_v17 (ix2 k o) = ix2 o k := funext fun a => Fin.ext (by match a with | ⟨0, _⟩ => rfl | ⟨1, _⟩ => rfl)
  rw [e]; rfl

end Cert.ReferenceIdeal.RefValue

end
-- ==== Proof.lean ====
/-
  A masked two-layer perceptron with rectifiers: the kernel against its plain reference, over the
  extended reals.

  Both programs compute, for the input `x : [32768, 794]`,
      out = relu (relu (x · (W1 ∘ MW0)ᵀ + β₁) · (W2 ∘ MW1)ᵀ + β₂),
      βᵢ  = bᵢ + rowsum (Wcᵢ ∘ mask) + bcᵢ,
  where `∘` is the entrywise product with a mask. The kernel builds the masked, transposed weights
  and the bias rows on the host once, then runs 32 grid points, each taking 1024 rows of `x`
  through both layers; the reference does everything on the host with general dot products.

  At the ideal instance a change of float format is the identity, and a product accumulated into
  zeros and the host's dot product are both the plain sum over the contracted index. What is left
  between the two sides is (i) that a layer is row-local, so the kernel's row blocks are the rows of
  the whole-array function (`Layer.lean`, `Blocks.lean`), and (ii) that the kernel adds one bias row
  `(b + r) + bc` where the reference adds `b`, `r`, `bc` in turn: associativity of `+` on the
  extended reals, which needs no finiteness. So the precondition is never opened.

  `Payload.lean` reads the kernel body at an index, `Entry.lean` the arrays the region is launched
  on, `RefValue.lean` the reference; here the two are joined and the five claims assembled. The
  kernel's idealization rewrote no operation, so `preserves` is `True`.
-/
import proofs.«107079_j46617575030817_1_alg».proof.Defs
import proofs.«107079_j46617575030817_1_alg».proof.Proof.Gen.Kernel
import proofs.«107079_j46617575030817_1_alg».proof.Proof.Gen.Kernel.Skeleton
import proofs.«107079_j46617575030817_1_alg».proof.Proof.Gen.Kernel.Launch
import proofs.«107079_j46617575030817_1_alg».proof.Proof.Gen.Kernel.Points
import proofs.«107079_j46617575030817_1_alg».proof.Proof.Gen.Kernel.Frame
import proofs.«107079_j46617575030817_1_alg».proof.Proof.Gen.KernelIdeal
import proofs.«107079_j46617575030817_1_alg».proof.Proof.Gen.KernelIdeal.Skeleton
import proofs.«107079_j46617575030817_1_alg».proof.Proof.Gen.KernelIdeal.Launch
import proofs.«107079_j46617575030817_1_alg».proof.Proof.Gen.KernelIdeal.Points
import proofs.«107079_j46617575030817_1_alg».proof.Proof.Gen.KernelIdeal.Frame
import proofs.«107079_j46617575030817_1_alg».proof.Proof.Gen.ReferenceIdeal
import proofs.«107079_j46617575030817_1_alg».proof.Proof.Gen.Pre_finite_inputs
import proofs.«107079_j46617575030817_1_alg».proof.Proof.Gen.KernelIdeal.Value
import proofs.«107079_j46617575030817_1_alg».proof.Proof.Gen.ReferenceIdeal.Run
import proofs.«107079_j46617575030817_1_alg».proof.Proof.Gen.ReferenceIdeal.Read
import Idealize.ShloMosaic.Adequacy
import Idealize.ShloMosaic.Init
import proofs.«107079_j46617575030817_1_alg».proof.Proof.Blocks
import proofs.«107079_j46617575030817_1_alg».proof.Proof.RefValue

noncomputable section

namespace Cert.Proof

open Idealize.ShloMosaic Idealize.ShloMosaic.TcCoe Idealize.SL.Sem Idealize.ShloMosaic.ValueIdx

/-- Two layers composed depend on the weights and the bias rows only through their entries. -/
theorem mlp2_congr {M K H N : Nat} (x : (⟨2, ![M, K]⟩ : Shape).Idx → EReal)
    (A₁ A₁' : (⟨2, ![K, H]⟩ : Shape).Idx → EReal) (c₁ c₁' : Fin H → EReal)
    (A₂ A₂' : (⟨2, ![H, N]⟩ : Shape).Idx → EReal) (c₂ c₂' : Fin N → EReal) (z : EReal)
    (hA₁ : ∀ (k : Fin K) (n : Fin H), A₁ (ix2 k n) = A₁' (ix2 k n)) (hc₁ : ∀ n, c₁ n = c₁' n)
    (hA₂ : ∀ (k : Fin H) (n : Fin N), A₂ (ix2 k n) = A₂' (ix2 k n)) (hc₂ : ∀ n, c₂ n = c₂' n) :
    Cert.Mlp.mlp2 x A₁ c₁ A₂ c₂ z = Cert.Mlp.mlp2 x A₁' c₁' A₂' c₂' z := by
  unfold Cert.Mlp.mlp2
  rw [Cert.Mlp.layer_congr x A₁ A₁' c₁ c₁' z hA₁ hc₁, Cert.Mlp.layer_congr _ A₂ A₂' c₂ c₂' z hA₂ hc₂]

section Join

open Cert.KernelIdeal Cert.KernelIdeal.Entry

variable (m : (ℓ : Loc Cert.KernelIdeal.nD Cert.KernelIdeal.τ Cert.KernelIdeal.sig) → Buf (Elt Ideal) ℓ)

/-- The kernel's output array is the reference's result term of the same eleven argument arrays: the staged weights
    are the reference's masked transposed weights entry by entry, and each staged bias row is the reference's three
    rows summed (the row sums are the same host reduction of the same product on both sides). -/
theorem out_eq (c : Dev Cert.KernelIdeal.nD) :
    Cert.KernelIdeal.Blocks.out m c
      = Cert.ReferenceIdeal.Read.val_main_v29 (F := Ideal) (xIn m c) (W1 m c) (b1 m c) (Wc1 m c) (bc1 m c)
          (W2 m c) (b2 m c) (Wc2 m c) (bc2 m c) (MW0 m c) (MW1 m c) := by
  rw [Cert.ReferenceIdeal.RefValue.result_eq]
  show Cert.Mlp.mlp2 (M := 32768) (K := 794) (H := 1024) (N := 512) (xArr m c) (A1 m c) (fun n => C1 m c (ix2 0 n))
      (A2 m c) (fun n => C2 m c (ix2 0 n)) (Ideal.ofBits .f32 0x00000000#32) = _
  rw [xArr_eq]
  exact mlp2_congr (M := 32768) (K := 794) (H := 1024) (N := 512) (xIn m c) _ _ _ _ _ _ _ _ _
    (fun j k => by rw [A1_apply, Cert.ReferenceIdeal.RefValue.w1_apply])
    (fun n => by rw [C1_apply]; rfl)
    (fun k o => by rw [A2_apply, Cert.ReferenceIdeal.RefValue.w2_apply])
    (fun n => by rw [C2_apply]; rfl)

end Join

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference has no kernel: its frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both runs end with the same result array: the kernel's at the two-layer function of its staged arrays, the
    reference's at its composed term, and the two are one function of the arguments (`out_eq`). -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Blocks.out m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v29_eq, h0, h1, h2, h3, h4, h5, h6, h7, h8, h9, h10]
  exact (out_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
